-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x4096x768 .f32) (main_arg1 : FVec F S8 .f32) (main_arg2 : FVec F S3072x8 .f32) (main_arg3 : FVec F S3072 .f32) (main_arg4 : FVec F S768x3072 .f32) (main_arg5 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x4096x768 : Shape := ⟨3, ![8, 4096, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S32768x768 : Shape := ⟨2, ![32768, 768]⟩
abbrev S1x8 : Shape := ⟨2, ![1, 8]⟩
abbrev S512x128 : Shape := ⟨2, ![512, 128]⟩
abbrev S512x768 : Shape := ⟨2, ![512, 768]⟩
abbrev S512x8 : Shape := ⟨2, ![512, 8]⟩
abbrev S512x3072 : Shape := ⟨2, ![512, 3072]⟩
abbrev S1x3072 : Shape := ⟨2, ![1, 3072]⟩
abbrev S1x768 : Shape := ⟨2, ![1, 768]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S32768x768, .f32⟩
  | .hbm, ⟨7, _⟩ => ⟨S8, .f32⟩
  | .hbm, ⟨8, _⟩ => ⟨S1x8, .f32⟩
  | .hbm, ⟨9, _⟩ => ⟨S3072x8, .f32⟩
  | .hbm, ⟨10, _⟩ => ⟨S3072x8, .f32⟩
  | .hbm, ⟨11, _⟩ => ⟨S3072x8, .bf16⟩
  | .hbm, ⟨12, _⟩ => ⟨S768x3072, .bf16⟩
  | .hbm, ⟨13, _⟩ => ⟨S32768x768, .f32⟩
  | .hbm, ⟨14, _⟩ => ⟨S8x4096x768, .f32⟩
  | .local _ .vmem, ⟨0, _⟩ => ⟨S512x128, .f32⟩
  | .local _ .vmem, ⟨1, _⟩ => ⟨S512x128, .f32⟩
  | .local _ .vmem, ⟨2, _⟩ => ⟨S3072x8, .bf16⟩
  | .local _ .vmem, ⟨3, _⟩ => ⟨S3072, .f32⟩
  | .local _ .vmem, ⟨4, _⟩ => ⟨S768x3072, .bf16⟩
  | .local _ .vmem, ⟨5, _⟩ => ⟨S768, .f32⟩
  | .local _ .vmem, ⟨6, _⟩ => ⟨S512x768, .f32⟩
  | .local _ .vmem, ⟨7, _⟩ => ⟨S512x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x768_S32768x768 : S8x4096x768.ShapeCasts S32768x768
  bcast_S8_S1x8_1 : S8.BroadcastsInDim S1x8 (![1] : Fin 1 → Fin S1x8.rank)
  bcast_S1x8_S3072x8_0_1 : S1x8.BroadcastsInDim S3072x8 (![0, 1] : Fin 2 → Fin S3072x8.rank)
  bitsLt_bf16_f32 : FTy.bits .bf16 < FTy.bits .f32
  inb_S512x128_S512x8_0_0 : ∀ a, (![0, 0] : Fin 2 → Nat) a + S512x8.size a ≤ S512x128.size a
  h_S512x8 : 0 < S512x8.numel
  shapeCasts_S512x8_S512x8 : S512x8.ShapeCasts S512x8
  inb_S3072x8_S3072x8_0_0 : ∀ a, (![0, 0] : Fin 2 → Nat) a + S3072x8.size a ≤ S3072x8.size a
  h_S3072x8 : 0 < S3072x8.numel
  shapeCasts_S3072x8_S3072x8 : S3072x8.ShapeCasts S3072x8
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S32768x768_S8x4096x768 : S32768x768.ShapeCasts S8x4096x768
  dot_S512x8_S3072x8_S512x3072_1_1_0_0_n_n_wf : DotDims.WF S512x8 S3072x8 S512x3072 [1] [1] [0] [0] [] []
  dot_S512x3072_S768x3072_S512x768_1_1_0_0_n_n_wf : DotDims.WF S512x3072 S768x3072 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x768.size a
  hwx0_0 : ∀ i : grid0.Coords, EltTy.bits .f32 = 32 ∨ (Rect.block (s := S32768x768) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x8.size a ≤ S3072x8.size a
  hwx0_1 : ∀ i : grid0.Coords, EltTy.bits .bf16 = 32 ∨ (Rect.block (s := S3072x8) S3072x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x3072.size a ≤ S768x3072.size a
  hwx0_3 : ∀ i : grid0.Coords, EltTy.bits .bf16 = 32 ∨ (Rect.block (s := S768x3072) S768x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x768.size a ≤ S32768x768.size a
  hwx0_5 : ∀ i : grid0.Coords, EltTy.bits .f32 = 32 ∨ (Rect.block (s := S32768x768) S512x768.size (cc0_transform_5 i) (hinb0_5 i)).WholeWords (EltTy.packing .f32)

variable [Facts₀]

def dot_S512x8_S3072x8_S512x3072_1_1_0_0_n_n : DotDims S512x8 S3072x8 S512x3072 where
  lhsContracting := [1]
  rhsContracting := [1]
  lhsNonContracting := [0]
  rhsNonContracting := [0]
  lhsBatch := []
  rhsBatch := []
  wf := dot_S512x8_S3072x8_S512x3072_1_1_0_0_n_n_wf
def dot_S512x3072_S768x3072_S512x768_1_1_0_0_n_n : DotDims S512x3072 S768x3072 S512x768 where
  lhsContracting := [1]
  rhsContracting := [1]
  lhsNonContracting := [0]
  rhsNonContracting := [0]
  lhsBatch := []
  rhsBatch := []
  wf := dot_S512x3072_S768x3072_S512x768_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3072x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S768x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x4096x8 : Shape := ⟨3, ![8, 4096, 8]⟩
abbrev S1x1x8 : Shape := ⟨3, ![1, 1, 8]⟩
abbrev S8x4096x3072 : Shape := ⟨3, ![8, 4096, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x3072, .f32⟩
  | .hbm, ⟨13, _⟩ => ⟨S1x1x3072, .f32⟩
  | .hbm, ⟨14, _⟩ => ⟨S8x4096x3072, .f32⟩
  | .hbm, ⟨15, _⟩ => ⟨S8x4096x3072, .f32⟩
  | .hbm, ⟨16, _⟩ => ⟨S_, .f32⟩
  | .hbm, ⟨17, _⟩ => ⟨S8x4096x3072, .f32⟩
  | .hbm, ⟨18, _⟩ => ⟨S8x4096x3072, .f32⟩
  | .hbm, ⟨19, _⟩ => ⟨S8x4096x768, .f32⟩
  | .hbm, ⟨20, _⟩ => ⟨S1x1x768, .f32⟩
  | .hbm, ⟨21, _⟩ => ⟨S8x4096x768, .f32⟩
  | .hbm, ⟨22, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x768_S8x4096x8_0_0_0 : S8x4096x768.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S3072_S1x1x3072_2 : S3072.BroadcastsInDim S1x1x3072 (![2] : Fin 1 → Fin S1x1x3072.rank)
  bcast_S1x1x3072_S8x4096x3072_0_1_2 : S1x1x3072.BroadcastsInDim S8x4096x3072 (![0, 1, 2] : Fin 3 → Fin S8x4096x3072.rank)
  bcast_S_S8x4096x3072 : S_.BroadcastsInDim S8x4096x3072 (![] : Fin 0 → Fin S8x4096x3072.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  dot_S8x4096x8_S3072x8_S8x4096x3072_2_1_01_0_n_n_wf : DotDims.WF S8x4096x8 S3072x8 S8x4096x3072 [2] [1] [0, 1] [0] [] []
  dot_S8x4096x3072_S768x3072_S8x4096x768_2_1_01_0_n_n_wf : DotDims.WF S8x4096x3072 S768x3072 S8x4096x768 [2] [1] [0, 1] [0] [] []

variable [Facts₀]

def dot_S8x4096x8_S3072x8_S8x4096x3072_2_1_01_0_n_n : DotDims S8x4096x8 S3072x8 S8x4096x3072 where
  lhsContracting := [2]
  rhsContracting := [1]
  lhsNonContracting := [0, 1]
  rhsNonContracting := [0]
  lhsBatch := []
  rhsBatch := []
  wf := dot_S8x4096x8_S3072x8_S8x4096x3072_2_1_01_0_n_n_wf
def dot_S8x4096x3072_S768x3072_S8x4096x768_2_1_01_0_n_n : DotDims S8x4096x3072 S768x3072 S8x4096x768 where
  lhsContracting := [2]
  rhsContracting := [1]
  lhsNonContracting := [0, 1]
  rhsNonContracting := [0]
  lhsBatch := []
  rhsBatch := []
  wf := dot_S8x4096x3072_S768x3072_S8x4096x768_2_1_01_0_n_n_wf

class Facts : Prop extends Facts₀ where

variable [Facts]
-- ==== Proof.Spec.lean ====
/-
  The function both programs compute, over the extended reals.

  A token at batch `b`, position `s` carries the eight angles `x[b, s, 0..7]` (the first eight of its 768 columns). Each
  angle `q` gives the expectation `cos x[b,s,q] · cos θ[q]`; the eight expectations feed a two-layer perceptron:
  hidden unit `f` is `max (Σ_q (cos x[b,s,q] · cos θ[q]) · W1[f,q] + b1[f]) 0`, and output column `e` is
  `Σ_f hidden[f] · W2[e,f] + b2[e]`.

  The kernel folds `cos θ` into the first weight matrix beforehand: it multiplies `cos x[b,s,q]` by `W1[f,q] · cos θ[q]`.
  On the extended reals multiplication is commutative and associative (no distributivity or cancellation is used), so
  `(a · t) · w = a · (w · t)` for all extended reals, infinite ones included, and the two hidden layers agree term by term.
-/
import Idealize.ShloMosaic.PureOps.Ideal
import Idealize.ShloMosaic.Lib.ValueIdx

noncomputable section

namespace Cert.Ffn

open Idealize.ShloMosaic Idealize.ShloMosaic.ValueIdx

/-- The literal shapes: the token array, the angles' offsets, the two weight matrices and their biases. -/
abbrev Tok : Shape := ⟨3, ![8, 4096, 768]⟩
abbrev Ang : Shape := ⟨1, ![8]⟩
abbrev Wt1 : Shape := ⟨2, ![3072, 8]⟩
abbrev Bi1 : Shape := ⟨1, ![3072]⟩
abbrev Wt2 : Shape := ⟨2, ![768, 3072]⟩
abbrev Bi2 : Shape := ⟨1, ![768]⟩

/-- Angle `q` of a token is column `q` of its 768 columns. -/
abbrev col (q : Fin 8) : Fin 768 := ⟨q.val, by have := q.isLt; omega⟩

/-- The zero the rectifier compares with: the f32 word `0x00000000`, never evaluated (both programs spell the same word). -/
abbrev zeroWord : EReal := Ideal.ofBits .f32 0x00000000#32

/-- Hidden unit `f` of the token at `(b, s)`, with the expectation `cos x · cos θ` formed first. -/
def hidden (x : FVec Ideal Tok .f32) (θ : FVec Ideal Ang .f32) (W1 : FVec Ideal Wt1 .f32) (b1 : FVec Ideal Bi1 .f32)
    (b : Fin 8) (s : Fin 4096) (f : Fin 3072) : EReal :=
  max ((∑ q : Fin 8, (Ideal.cos (x (ix3 b s (col q))) * Ideal.cos (θ (ix1 q))) * W1 (ix2 f q)) + b1 (ix1 f)) zeroWord

/-- The same unit with `cos θ` folded into the weights first. -/
def hiddenFolded (x : FVec Ideal Tok .f32) (θ : FVec Ideal Ang .f32) (W1 : FVec Ideal Wt1 .f32) (b1 : FVec Ideal Bi1 .f32)
    (b : Fin 8) (s : Fin 4096) (f : Fin 3072) : EReal :=
  max ((∑ q : Fin 8, Ideal.cos (x (ix3 b s (col q))) * (W1 (ix2 f q) * Ideal.cos (θ (ix1 q)))) + b1 (ix1 f)) zeroWord

/-- Folding `cos θ` into the weights changes no hidden unit: `(a · t) · w = a · (w · t)` on the extended reals. -/
theorem hiddenFolded_eq (x : FVec Ideal Tok .f32) (θ : FVec Ideal Ang .f32) (W1 : FVec Ideal Wt1 .f32) (b1 : FVec Ideal Bi1 .f32)
    (b : Fin 8) (s : Fin 4096) (f : Fin 3072) : hiddenFolded x θ W1 b1 b s f = hidden x θ W1 b1 b s f := by
  unfold hiddenFolded hidden
  refine congrArg (fun z => max (z + b1 (ix1 f)) zeroWord) (Finset.sum_congr rfl fun q _ => ?_)
  rw [mul_assoc, mul_comm (Ideal.cos (θ (ix1 q)))]

/-- The whole result: output column `e = i 2` of the token at `(i 0, i 1)`. -/
def ffn (x : FVec Ideal Tok .f32) (θ : FVec Ideal Ang .f32) (W1 : FVec Ideal Wt1 .f32) (b1 : FVec Ideal Bi1 .f32)
    (W2 : FVec Ideal Wt2 .f32) (b2 : FVec Ideal Bi2 .f32) : FVec Ideal Tok .f32 := fun i =>
  (∑ f : Fin 3072, hidden x θ W1 b1 (i 0) (i 1) f * W2 (ix2 (i 2) f)) + b2 (ix1 (i 2))

end Cert.Ffn

end
-- ==== Proof.KernelBody.lean ====
/-
  The kernel body's stored value at an index of its 512 × 768 output block, over the extended reals.

  From the five loaded blocks — the angles `a` (512 rows, the first 8 of the 128 fetched columns), the folded first weights
  `w1`, the bias `c1`, the second weights `w2`, the bias `c2` — entry `(p, e)` of the stored value is
  `Σ_f max (Σ_q cos a[p,q] · w1[f,q] + c1[f]) 0 · w2[e,f] + c2[e]`: each matrix product into a zero accumulator is the plain
  sum over its contracted axis, each change of float format is the identity, each bias is one row broadcast over the
  512 rows, and the identity casts read where they are asked.
-/
import proofs.«135122_j65481071395484_1_alg».proof.Proof.Gen.KernelIdeal.Skeleton
import proofs.«135122_j65481071395484_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Ffn.Body

open Idealize.ShloMosaic Idealize.ShloMosaic.ValueIdx Cert.KernelIdeal Cert.KernelIdeal.Gen Cert.Ffn

/-! ## The first product: 512 × 8 angles against 3072 × 8 weights, contracted over the 8 -/

theorem lhs1_0 (i : S512x3072.Idx) (k : dot_S512x8_S3072x8_S512x3072_1_1_0_0_n_n.contr.Idx) :
    (dot_S512x8_S3072x8_S512x3072_1_1_0_0_n_n.lhsIdx i k 0).val = (i 0).val := by
  unfold DotDims.lhsIdx
  rw [dif_neg (show ¬(0 : Fin S512x8.rank) ∈ dot_S512x8_S3072x8_S512x3072_1_1_0_0_n_n.lhsBatch by decide), dif_pos (show (0 : Fin S512x8.rank) ∈ dot_S512x8_S3072x8_S512x3072_1_1_0_0_n_n.lhsNonContracting by decide)]
  rfl
theorem lhs1_1 (i : S512x3072.Idx) (k : dot_S512x8_S3072x8_S512x3072_1_1_0_0_n_n.contr.Idx) :
    (dot_S512x8_S3072x8_S512x3072_1_1_0_0_n_n.lhsIdx i k 1).val = (k ⟨0, by decide⟩).val :=
  dot_S512x8_S3072x8_S512x3072_1_1_0_0_n_n.lhsIdx_val_of_single rfl i k
theorem rhs1_0 (i : S512x3072.Idx) (k : dot_S512x8_S3072x8_S512x3072_1_1_0_0_n_n.contr.Idx) :
    (dot_S512x8_S3072x8_S512x3072_1_1_0_0_n_n.rhsIdx i k 0).val = (i 1).val := by
  unfold DotDims.rhsIdx
  rw [dif_neg (show ¬(0 : Fin S3072x8.rank) ∈ dot_S512x8_S3072x8_S512x3072_1_1_0_0_n_n.rhsBatch by decide), dif_pos (show (0 : Fin S3072x8.rank) ∈ dot_S512x8_S3072x8_S512x3072_1_1_0_0_n_n.rhsNonContracting by decide)]
  rfl
theorem rhs1_1 (i : S512x3072.Idx) (k : dot_S512x8_S3072x8_S512x3072_1_1_0_0_n_n.contr.Idx) :
    (dot_S512x8_S3072x8_S512x3072_1_1_0_0_n_n.rhsIdx i k 1).val = (k ⟨0, by decide⟩).val :=
  dot_S512x8_S3072x8_S512x3072_1_1_0_0_n_n.rhsIdx_val_of_single rfl i k

/-- Entry `(p, f)` of the first product is the sum over the eight angles of `l[p,q] · r[f,q]`. -/
theorem product1_apply (l : FVec Ideal S512x8 .bf16) (r : FVec Ideal S3072x8 .bf16) (p : Fin 512) (f : Fin 3072) :
    matmul dot_S512x8_S3072x8_S512x3072_1_1_0_0_n_n none l r (constant S512x3072 .f32 0x00000000#32) (ix2 p f)
      = ∑ q : Fin 8, l (ix2 p q) * r (ix2 f q) := by
  simp only [matmul]
  rw [Ideal.matmul_constant_zero_apply, ← Equiv.sum_comp (contrEquiv1 dot_S512x8_S3072x8_S512x3072_1_1_0_0_n_n 8 rfl rfl).symm]
  refine Finset.sum_congr rfl fun q _ => ?_
  have hk := contrEquiv1_symm_val dot_S512x8_S3072x8_S512x3072_1_1_0_0_n_n 8 rfl rfl q
  have el : dot_S512x8_S3072x8_S512x3072_1_1_0_0_n_n.lhsIdx (ix2 p f) ((contrEquiv1 dot_S512x8_S3072x8_S512x3072_1_1_0_0_n_n 8 rfl rfl).symm q) = ix2 p q := funext fun a => Fin.ext (by
    match a with
    | ⟨0, _⟩ => exact lhs1_0 _ _
    | ⟨1, _⟩ => exact (lhs1_1 _ _).trans hk)
  have er : dot_S512x8_S3072x8_S512x3072_1_1_0_0_n_n.rhsIdx (ix2 p f) ((contrEquiv1 dot_S512x8_S3072x8_S512x3072_1_1_0_0_n_n 8 rfl rfl).symm q) = ix2 f q := funext fun a => Fin.ext (by
    match a with
    | ⟨0, _⟩ => exact rhs1_0 _ _
    | ⟨1, _⟩ => exact (rhs1_1 _ _).trans hk)
  rw [el, er]

/-! ## The second product: 512 × 3072 hidden units against 768 × 3072 weights, contracted over the 3072 -/

theorem lhs2_0 (i : S512x768.Idx) (k : dot_S512x3072_S768x3072_S512x768_1_1_0_0_n_n.contr.Idx) :
    (dot_S512x3072_S768x3072_S512x768_1_1_0_0_n_n.lhsIdx i k 0).val = (i 0).val := by
  unfold DotDims.lhsIdx
  rw [dif_neg (show ¬(0 : Fin S512x3072.rank) ∈ dot_S512x3072_S768x3072_S512x768_1_1_0_0_n_n.lhsBatch by decide), dif_pos (show (0 : Fin S512x3072.rank) ∈ dot_S512x3072_S768x3072_S512x768_1_1_0_0_n_n.lhsNonContracting by decide)]
  rfl
theorem lhs2_1 (i : S512x768.Idx) (k : dot_S512x3072_S768x3072_S512x768_1_1_0_0_n_n.contr.Idx) :
    (dot_S512x3072_S768x3072_S512x768_1_1_0_0_n_n.lhsIdx i k 1).val = (k ⟨0, by decide⟩).val :=
  dot_S512x3072_S768x3072_S512x768_1_1_0_0_n_n.lhsIdx_val_of_single rfl i k
theorem rhs2_0 (i : S512x768.Idx) (k : dot_S512x3072_S768x3072_S512x768_1_1_0_0_n_n.contr.Idx) :
    (dot_S512x3072_S768x3072_S512x768_1_1_0_0_n_n.rhsIdx i k 0).val = (i 1).val := by
  unfold DotDims.rhsIdx
  rw [dif_neg (show ¬(0 : Fin S768x3072.rank) ∈ dot_S512x3072_S768x3072_S512x768_1_1_0_0_n_n.rhsBatch by decide), dif_pos (show (0 : Fin S768x3072.rank) ∈ dot_S512x3072_S768x3072_S512x768_1_1_0_0_n_n.rhsNonContracting by decide)]
  rfl
theorem rhs2_1 (i : S512x768.Idx) (k : dot_S512x3072_S768x3072_S512x768_1_1_0_0_n_n.contr.Idx) :
    (dot_S512x3072_S768x3072_S512x768_1_1_0_0_n_n.rhsIdx i k 1).val = (k ⟨0, by decide⟩).val :=
  dot_S512x3072_S768x3072_S512x768_1_1_0_0_n_n.rhsIdx_val_of_single rfl i k

/-- Entry `(p, e)` of the second product is the sum over the hidden units of `l[p,f] · r[e,f]`. -/
theorem product2_apply (l : FVec Ideal S512x3072 .bf16) (r : FVec Ideal S768x3072 .bf16) (p : Fin 512) (e : Fin 768) :
    matmul dot_S512x3072_S768x3072_S512x768_1_1_0_0_n_n none l r (constant S512x768 .f32 0x00000000#32) (ix2 p e)
      = ∑ f : Fin 3072, l (ix2 p f) * r (ix2 e f) := by
  simp only [matmul]
  rw [Ideal.matmul_constant_zero_apply, ← Equiv.sum_comp (contrEquiv1 dot_S512x3072_S768x3072_S512x768_1_1_0_0_n_n 3072 rfl rfl).symm]
  refine Finset.sum_congr rfl fun f _ => ?_
  have hk := contrEquiv1_symm_val dot_S512x3072_S768x3072_S512x768_1_1_0_0_n_n 3072 rfl rfl f
  have el : dot_S512x3072_S768x3072_S512x768_1_1_0_0_n_n.lhsIdx (ix2 p e) ((contrEquiv1 dot_S512x3072_S768x3072_S512x768_1_1_0_0_n_n 3072 rfl rfl).symm f) = ix2 p f := funext fun a => Fin.ext (by
    match a with
    | ⟨0, _⟩ => exact lhs2_0 _ _
    | ⟨1, _⟩ => exact (lhs2_1 _ _).trans hk)
  have er : dot_S512x3072_S768x3072_S512x768_1_1_0_0_n_n.rhsIdx (ix2 p e) ((contrEquiv1 dot_S512x3072_S768x3072_S512x768_1_1_0_0_n_n 3072 rfl rfl).symm f) = ix2 e f := funext fun a => Fin.ext (by
    match a with
    | ⟨0, _⟩ => exact rhs2_0 _ _
    | ⟨1, _⟩ => exact (rhs2_1 _ _).trans hk)
  rw [el, er]

/-! ## The biases: one row over the 512 rows -/

/-- The first bias, cast to one row and broadcast, reads `c1[f]` at `(p, f)`. -/
theorem bias1_apply (c1 : FVec Ideal S3072 .f32) (p : Fin 512) (f : Fin 3072) :
    broadcastTo S512x3072 (shapeCast S1x3072 c1 shapeCasts_S3072_S1x3072) broadcasts_S1x3072_S512x3072 (ix2 p f) = c1 (ix1 f) := by
  rw [broadcastTo_1b_ab_apply, shapeCast_a_1a_apply]

/-- The second bias likewise reads `c2[e]` at `(p, e)`. -/
theorem bias2_apply (c2 : FVec Ideal S768 .f32) (p : Fin 512) (e : Fin 768) :
    broadcastTo S512x768 (shapeCast S1x768 c2 shapeCasts_S768_S1x768) broadcasts_S1x768_S512x768 (ix2 p e) = c2 (ix1 e) := by
  rw [broadcastTo_1b_ab_apply, shapeCast_a_1a_apply]

/-! ## The stored value -/

/-- The rectified hidden unit `(p, f)` the body forms from its loaded blocks. -/
def unit (a : FVec Ideal S512x8 .f32) (w1 : FVec Ideal S3072x8 .bf16) (c1 : FVec Ideal S3072 .f32) (p : Fin 512) (f : Fin 3072) : EReal :=
  max ((∑ q : Fin 8, Ideal.cos (a (ix2 p q)) * w1 (ix2 f q)) + c1 (ix1 f)) zeroWord

/-- Entry `(p, e)` of what the body stores. -/
theorem stored_apply (a : Vec Ideal S512x8 .f32) (w1 : Vec Ideal S3072x8 .bf16) (c1 : Vec Ideal S3072 .f32)
    (w2 : Vec Ideal S768x3072 .bf16) (c2 : Vec Ideal S768 .f32) (p : Fin 512) (e : Fin 768) :
    k0_pay1 (F := Ideal) a w1 c1 w2 c2 (ix2 p e) = (∑ f : Fin 3072, unit a w1 c1 p f * w2 (ix2 e f)) + c2 (ix1 e) := by
  unfold k0_pay1
  rw [addf_apply, product2_apply, bias2_apply]
  refine congrArg (· + c2 (ix1 e)) (Finset.sum_congr rfl fun f _ => ?_)
  rw [shapeCast_self, truncf_apply, maximumf_apply, addf_apply, product1_apply, bias1_apply]
  unfold unit
  simp only [shapeCast_self, truncf_apply]
  rfl

end Cert.Ffn.Body

end
-- ==== Proof.KernelBlocks.lean ====
/-
  From the blocks the grid points write back to the whole 32768 × 768 result of the kernel region.

  Point `t` of the 64 reads rows `512 t … 512 t + 511` of the token rows (the first 128 columns; the body uses the first 8),
  the whole of the folded first weights, of both biases and of the second weights, and writes rows
  `512 t … 512 t + 511` of the result. Row `r`, column `e` of what it writes is
  `Σ_f max (Σ_q cos X[r,q] · w1[f,q] + c1[f]) 0 · w2[e,f] + c2[e]`, a function of the arrays that does not mention the point:
  the 64 blocks tile the result, so the result is that function everywhere.
-/
import proofs.«135122_j65481071395484_1_alg».proof.Proof.Gen.KernelIdeal.Frame
import proofs.«135122_j65481071395484_1_alg».proof.Proof.KernelBody
import Idealize.ShloMosaic.Lib.Pipeline.Value
import Idealize.ShloMosaic.Lib.ValueIdx

set_option maxRecDepth 16384

noncomputable section

namespace Cert.Ffn.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Ffn

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a; rfl

/-- The region's result as one function of the five arrays it reads. -/
def rowsOut (X : FVec Ideal S32768x768 .f32) (w1 : FVec Ideal S3072x8 .bf16) (c1 : FVec Ideal S3072 .f32)
    (w2 : FVec Ideal S768x3072 .bf16) (c2 : FVec Ideal S768 .f32) : FVec Ideal S32768x768 .f32 := fun i =>
  (∑ f : Fin 3072, max ((∑ q : Fin 8, Ideal.cos (X (ix2 (i 0) (col q))) * w1 (ix2 f q)) + c1 (ix1 f)) zeroWord * w2 (ix2 (i 1) f))
    + c2 (ix1 (i 1))

/-- `rowsOut` at row `r`, column `e`. -/
theorem rowsOut_apply (X : FVec Ideal S32768x768 .f32) (w1 : FVec Ideal S3072x8 .bf16) (c1 : FVec Ideal S3072 .f32)
    (w2 : FVec Ideal S768x3072 .bf16) (c2 : FVec Ideal S768 .f32) (r : Fin 32768) (e : Fin 768) :
    rowsOut X w1 c1 w2 c2 (ix2 r e)
      = (∑ f : Fin 3072, max ((∑ q : Fin 8, Ideal.cos (X (ix2 r (col q))) * w1 (ix2 f q)) + c1 (ix1 f)) zeroWord * w2 (ix2 e f))
        + c2 (ix1 e) := rfl

/-- The body's load of the angles reads the first eight columns of the fetched 512 × 128 block. -/
theorem angles_load (x0 : Vec Ideal S512x128 .f32) (p : Fin 512) (q : Fin 8) :
    View.ld x0 r0_0 (ix2 p q) = x0 (ix2 p ⟨q.val, by have := q.isLt; omega⟩) := by
  show x0 (r0_0.idx (ix2 p q)) = _
  refine congrArg x0 (funext fun a => Fin.ext ?_)
  match a with
  | ⟨0, _⟩ => show 0 + 1 * p.val = p.val; omega
  | ⟨1, _⟩ => show 0 + 1 * q.val = q.val; omega

/-- What a point leaves in the output's staging buffer, at `(p, e)`: row `512 n + p`, column `e` of `rowsOut`, when the
    fetched token block is rows `512 n …` of `X` and the other four blocks are the whole arrays. -/
theorem block_apply (x0 : Vec Ideal S512x128 .f32) (x1 : Vec Ideal S3072x8 .bf16) (x2 : Vec Ideal S3072 .f32)
    (x3 : Vec Ideal S768x3072 .bf16) (x4 : Vec Ideal S768 .f32)
    (X : FVec Ideal S32768x768 .f32) (n : Nat) (hn : n < 64)
    (h0 : ∀ (p : Fin 512) (k : Fin 128), x0 (ix2 p k) = X (ix2 ⟨n * 512 + p.val, by have := p.isLt; omega⟩ ⟨k.val, by have := k.isLt; omega⟩))
    (p : Fin 512) (e : Fin 768) :
    out0_5 x0 x1 x2 x3 x4 (ix2 p e) = rowsOut X x1 x2 x3 x4 (ix2 ⟨n * 512 + p.val, by have := p.isLt; omega⟩ e) := by
  unfold out0_5
  rw [View.canon_unit_zero zeros2]
  simp only [View.ld_unit_zero (S := S3072x8) zeros2, View.ld_unit_zero (S := S768x3072) zeros2,
    View.ld_unit_zero (S := S3072) zeros1, View.ld_unit_zero (S := S768) zeros1]
  rw [Body.stored_apply, rowsOut_apply]
  refine congrArg (· + x4 (ix1 e)) (Finset.sum_congr rfl fun f _ => ?_)
  refine congrArg (· * x3 (ix2 e f)) ?_
  unfold Body.unit
  refine congrArg (fun z => max (z + x2 (ix1 f)) zeroWord) (Finset.sum_congr rfl fun q _ => ?_)
  refine congrArg (fun z => Ideal.cos z * x1 (ix2 f q)) ?_
  exact (angles_load x0 p q).trans (h0 p _)

/-- The same at any index `j` of the 512 × 768 block. -/
theorem block_apply_idx (x0 : Vec Ideal S512x128 .f32) (x1 : Vec Ideal S3072x8 .bf16) (x2 : Vec Ideal S3072 .f32)
    (x3 : Vec Ideal S768x3072 .bf16) (x4 : Vec Ideal S768 .f32)
    (X : FVec Ideal S32768x768 .f32) (n : Nat) (hn : n < 64)
    (h0 : ∀ (p : Fin 512) (k : Fin 128), x0 (ix2 p k) = X (ix2 ⟨n * 512 + p.val, by have := p.isLt; omega⟩ ⟨k.val, by have := k.isLt; omega⟩))
    (j : S512x768.Idx) (hj0 : (j 0).val < 512) (hj1 : (j 1).val < 768) :
    out0_5 x0 x1 x2 x3 x4 j = rowsOut X x1 x2 x3 x4 (ix2 (⟨n * 512 + (j 0).val, by omega⟩ : Fin 32768) (⟨(j 1).val, hj1⟩ : Fin 768)) := by
  obtain ⟨p, e, rfl⟩ : ∃ (p : Fin 512) (e : Fin 768), j = ix2 p e := ⟨j 0, j 1, eq_ix2 j⟩
  exact block_apply x0 x1 x2 x3 x4 X n hn h0 p e

/-- The printed index maps, decided over the 64 points: the token window and the output window are at block row `t`,
    column block 0; the four whole-array windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 64 := Nat.lt_of_lt_of_eq t.isLt (show cfg0.N = 64 from N_0)

/-- The token window's block at point `t` is rows `512 t …` of the token rows, columns `0 … 127`. -/
theorem tokenBlock_apply (c : Dev nD) (t : Fin cfg0.N) (p : Fin 512) (k : Fin 128) :
    (iblk m c 0 t : Vec Ideal S512x128 .f32) (ix2 p k)
      = (V m c main_v0 : FVec Ideal S32768x768 .f32) (ix2 ⟨t.val * 512 + p.val, by have := p.isLt; have := point_lt t; omega⟩ ⟨k.val, by have := k.isLt; omega⟩) := by
  obtain ⟨e0, e1, -⟩ := idx_facts t
  show (V m c main_v0 : FVec Ideal S32768x768 .f32) (((cfg0.win 0).blk t).view.emb (ix2 p k)) = _
  refine congrArg (V m c main_v0 : FVec Ideal S32768x768 .f32) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 128 + 1 * k.val = k.val; rw [e1]; omega

/-- The four single-block windows' blocks are their whole arrays, at every point. -/
theorem weights1Block (c : Dev nD) (t : Fin cfg0.N) :
    (iblk m c 1 t : Vec Ideal S3072x8 .bf16) = (V m c main_v5 : FVec Ideal S3072x8 .bf16) := by
  obtain ⟨-, -, e0, e1, -⟩ := idx_facts t
  funext y
  show (V m c main_v5 : FVec Ideal S3072x8 .bf16) (((cfg0.win 1).blk t).view.emb y) = _
  refine congrArg (V m c main_v5 : FVec Ideal S3072x8 .bf16) (funext fun a => Fin.ext ?_)
  match a with
  | ⟨0, _⟩ => show win0_1.index t (0 : Fin 2) * 3072 + 1 * (y 0).val = (y 0).val; rw [e0]; omega
  | ⟨1, _⟩ => show win0_1.index t (1 : Fin 2) * 8 + 1 * (y 1).val = (y 1).val; rw [e1]; omega

theorem bias1Block (c : Dev nD) (t : Fin cfg0.N) :
    (iblk m c 2 t : Vec Ideal S3072 .f32) = (V m c main_arg3 : FVec Ideal S3072 .f32) := by
  obtain ⟨-, -, -, -, e0, -⟩ := idx_facts t
  funext y
  show (V m c main_arg3 : FVec Ideal S3072 .f32) (((cfg0.win 2).blk t).view.emb y) = _
  refine congrArg (V m c main_arg3 : FVec Ideal S3072 .f32) (funext fun a => Fin.ext ?_)
  match a with
  | ⟨0, _⟩ => show win0_2.index t (0 : Fin 1) * 3072 + 1 * (y 0).val = (y 0).val; rw [e0]; omega

theorem weights2Block (c : Dev nD) (t : Fin cfg0.N) :
    (iblk m c 3 t : Vec Ideal S768x3072 .bf16) = (V m c main_v6 : FVec Ideal S768x3072 .bf16) := by
  obtain ⟨-, -, -, -, -, e0, e1, -⟩ := idx_facts t
  funext y
  show (V m c main_v6 : FVec Ideal S768x3072 .bf16) (((cfg0.win 3).blk t).view.emb y) = _
  refine congrArg (V m c main_v6 : FVec Ideal S768x3072 .bf16) (funext fun a => Fin.ext ?_)
  match a with
  | ⟨0, _⟩ => show win0_3.index t (0 : Fin 2) * 768 + 1 * (y 0).val = (y 0).val; rw [e0]; omega
  | ⟨1, _⟩ => show win0_3.index t (1 : Fin 2) * 3072 + 1 * (y 1).val = (y 1).val; rw [e1]; omega

theorem bias2Block (c : Dev nD) (t : Fin cfg0.N) :
    (iblk m c 4 t : Vec Ideal S768 .f32) = (V m c main_arg5 : FVec Ideal S768 .f32) := by
  obtain ⟨-, -, -, -, -, -, -, e0, -⟩ := idx_facts t
  funext y
  show (V m c main_arg5 : FVec Ideal S768 .f32) (((cfg0.win 4).blk t).view.emb y) = _
  refine congrArg (V m c main_arg5 : FVec Ideal S768 .f32) (funext fun a => Fin.ext ?_)
  match a with
  | ⟨0, _⟩ => show win0_4.index t (0 : Fin 1) * 768 + 1 * (y 0).val = (y 0).val; rw [e0]; omega

/-- The region's result over the arrays as the region finds them. -/
abbrev regionOut (c : Dev nD) : FVec Ideal S32768x768 .f32 :=
  rowsOut (V m c main_v0) (V m c main_v5) (V m c main_arg3) (V m c main_v6) (V m c main_arg5)

/-- What point `t` writes back is block `t` of `regionOut`. -/
theorem writeback_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  obtain ⟨-, -, -, -, -, -, -, -, e0, e1⟩ := idx_facts t
  funext j
  have hj0 : (j 0).val < 512 := (j 0).isLt
  have hj1 : (j 1).val < 768 := (j 1).isLt
  have hemb : ((cfg0.win 5).blk t).view.emb j
      = ix2 (⟨t.val * 512 + (j 0).val, by have := point_lt t; omega⟩ : Fin 32768) (⟨(j 1).val, hj1⟩ : Fin 768) := by
    funext a; apply Fin.ext
    match a with
    | ⟨0, _⟩ => show win0_5.index t (0 : Fin 2) * 512 + 1 * (j 0).val = t.val * 512 + (j 0).val; rw [e0]; omega
    | ⟨1, _⟩ => show win0_5.index t (1 : Fin 2) * 768 + 1 * (j 1).val = (j 1).val; rw [e1]; omega
  show out0_5 (iblk m c 0 t) (iblk m c 1 t) (iblk m c 2 t) (iblk m c 3 t) (iblk m c 4 t) j
    = regionOut m c (((cfg0.win 5).blk t).view.emb j)
  rw [hemb, weights1Block m c t, bias1Block m c t, weights2Block m c t, bias2Block m c t]
  exact block_apply_idx (iblk m c 0 t) (V m c main_v5) (V m c main_arg3) (V m c main_v6) (V m c main_arg5) (V m c main_v0)
    t.val (point_lt t) (tokenBlock_apply m c t) j hj0 hj1

/-- An index of the result is in point `t`'s block iff each coordinate is in the block's range on its axis. -/
theorem mem_block (t : Fin cfg0.N) (i : S32768x768.Idx) :
    i ∈ ((cfg0.win 5).blk t).view.set ↔ ∀ a : Fin 2, win0_5.index t a * S512x768.size a ≤ (i a).val ∧ (i a).val < win0_5.index t a * S512x768.size a + S512x768.size a := by
  show i ∈ ((View.whole main_v7).slice (win0_5.rect t)).set ↔ _
  rw [View.set_slice_whole, Rect.mem_set_unit]
  exact Iff.rfl

/-- Row `r` is in the block of point `r / 512`: the 64 blocks tile the result. -/
theorem tiled (i : S32768x768.Idx) :
    ∃ t : Fin cfg0.N, (cfg0.win 5).flush t = true ∧ i ∈ ((cfg0.win 5).blk t).view.set := by
  have hi0 : (i 0).val < 32768 := (i 0).isLt
  have hi1 : (i 1).val < 768 := (i 1).isLt
  obtain ⟨t, ht⟩ : ∃ t : Fin cfg0.N, t.val = (i 0).val / 512 :=
    ⟨⟨(i 0).val / 512, by rw [show cfg0.N = 64 from N_0]; omega⟩, rfl⟩
  obtain ⟨-, -, -, -, -, -, -, -, e0, e1⟩ := idx_facts t
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 768 ≤ (i 1).val ∧ (i 1).val < win0_5.index t (1 : Fin 2) * 768 + 768; rw [e1]; omega

/-- The result array after the last point is `regionOut`. -/
theorem regionOut_final (c : Dev nD) : (dats m 0 c).arrAt 5 cfg0.N = regionOut m c :=
  (dats m 0 c).arrAt_eq_of_cover 5 (regionOut m c) (fun t _ => writeback_eq m c t) tiled

end Cert.Ffn.Blocks

end
-- ==== Proof.KernelEntry.lean ====
/-
  What the kernel region finds in the arrays the host lines before it wrote, over the extended reals:
  the token array reshaped to 32768 rows of 768 columns; the first weights multiplied, column `q` by `cos θ[q]`
  (the change to the narrower float format is the identity here); the second weights unchanged.
-/
import proofs.«135122_j65481071395484_1_alg».proof.Proof.Gen.KernelIdeal.Frame
import proofs.«135122_j65481071395484_1_alg».proof.Proof.Spec
import Idealize.ShloMosaic.Lib.StableHlo.Run
import Idealize.ShloMosaic.Lib.Pipeline.Value
import Idealize.ShloMosaic.Lib.ValueIdx

noncomputable section

namespace Cert.Ffn.Entry

open Idealize.ShloMosaic Idealize.ShloMosaic.TcCoe Idealize.ShloMosaic.ValueIdx Idealize.SL.Sem Idealize.ShloMosaic.StableHlo
open Cert.KernelIdeal Cert.KernelIdeal.Gen Cert.Ffn

variable (m : (ℓ : Loc nD τ sig) → Buf (Elt Ideal) ℓ)

/-- The six argument arrays as launched, at their literal types. -/
abbrev tokens (c : Dev nD) : FVec Ideal S8x4096x768 .f32 := m ((c : Thread nD τ).loc main_arg0)
abbrev angles (c : Dev nD) : FVec Ideal S8 .f32 := m ((c : Thread nD τ).loc main_arg1)
abbrev weights1 (c : Dev nD) : FVec Ideal S3072x8 .f32 := m ((c : Thread nD τ).loc main_arg2)
abbrev bias1 (c : Dev nD) : FVec Ideal S3072 .f32 := m ((c : Thread nD τ).loc main_arg3)
abbrev weights2 (c : Dev nD) : FVec Ideal S768x3072 .f32 := m ((c : Thread nD τ).loc main_arg4)
abbrev bias2 (c : Dev nD) : FVec Ideal S768 .f32 := m ((c : Thread nD τ).loc main_arg5)

/-- The three arrays the host lines write for the region, at their literal types. -/
abbrev rows (c : Dev nD) : FVec Ideal S32768x768 .f32 := V m c main_v0
abbrev folded (c : Dev nD) : FVec Ideal S3072x8 .bf16 := V m c main_v5
abbrev narrowed2 (c : Dev nD) : FVec Ideal S768x3072 .bf16 := V m c main_v6

/-- The token rows: the launch contents of the token array, reshaped. -/
theorem rows_eq (c : Dev nD) :
    rows m c = shapeCast S32768x768 (tokens m c) shapeCasts_S8x4096x768_S32768x768 := by
  show StableHlo.after hostOps0 (fun b => m (c, b)) (Proc.devRef .tc main_v0) = _
  after_results <;> rfl

/-- The folded first weights. -/
theorem folded_eq (c : Dev nD) :
    folded m c = truncf .bf16 (mulf (weights1 m c)
          (broadcastInDim S3072x8 ![0, 1] bcast_S1x8_S3072x8_0_1 (broadcastInDim S1x8 ![1] bcast_S8_S1x8_1
            (Host.cos (angles m c))))) bitsLt_bf16_f32 := by
  show StableHlo.after hostOps0 (fun b => m (c, b)) (Proc.devRef .tc main_v5) = _
  after_results <;> rfl

/-- The second weights. -/
theorem narrowed2_eq (c : Dev nD) :
    narrowed2 m c = truncf .bf16 (weights2 m c) bitsLt_bf16_f32 := by
  show StableHlo.after hostOps0 (fun b => m (c, b)) (Proc.devRef .tc main_v6) = _
  after_results <;> rfl

/-- Row `b · 4096 + s` of the token rows is the token at `(b, s)`. -/
theorem rows_apply (c : Dev nD) (b : Fin 8) (s : Fin 4096) (k : Fin 768) (r : Fin 32768) (hr : r.val = b.val * 4096 + s.val) :
    rows m c (ix2 r k) = tokens m c (ix3 b s k) := by
  rw [rows_eq]
  refine shapeCast_apply (tokens m c) shapeCasts_S8x4096x768_S32768x768 (ix2 r k) (ix3 b s k) ?_
  rw [Shape.rowMajor_val_three, Shape.rowMajor_val_two]
  show (b.val * 4096 + s.val) * 768 + k.val = r.val * 768 + k.val
  rw [hr]

/-- Entry `(f, q)` of the folded first weights is `W1[f,q] · cos θ[q]`. -/
theorem folded_apply (c : Dev nD) (f : Fin 3072) (q : Fin 8) :
    folded m c (ix2 f q) = weights1 m c (ix2 f q) * Ideal.cos (angles m c (ix1 q)) := by
  rw [folded_eq, truncf_apply, mulf_apply]
  refine congrArg (weights1 m c (ix2 f q) * ·) ?_
  rw [broadcastInDim_apply _ bcast_S1x8_S3072x8_0_1 _ (ix2 f q) (ix2 (0 : Fin 1) q) (fun a => match a with
      | ⟨0, _⟩ => by show 0 = if (1 : Nat) = 1 then 0 else f.val; rw [if_pos rfl]
      | ⟨1, _⟩ => by show q.val = if (8 : Nat) = 1 then 0 else q.val; rw [if_neg (by decide)]),
    broadcastInDim_apply _ bcast_S8_S1x8_1 _ (ix2 (0 : Fin 1) q) (ix1 q) (fun a => match a with
      | ⟨0, _⟩ => by show q.val = if (8 : Nat) = 1 then 0 else q.val; rw [if_neg (by decide)])]
  rfl

/-- Entry `(e, f)` of the second weights is `W2[e,f]`. -/
theorem narrowed2_apply (c : Dev nD) (e : Fin 768) (f : Fin 3072) :
    narrowed2 m c (ix2 e f) = weights2 m c (ix2 e f) := by
  rw [narrowed2_eq, truncf_apply]

/-- No host line before the region writes a bias: the region finds both as launched. -/
theorem bias1_kept (c : Dev nD) : (V m c main_arg3 : FVec Ideal S3072 .f32) = bias1 m c := V_main_arg3 m c
theorem bias2_kept (c : Dev nD) : (V m c main_arg5 : FVec Ideal S768 .f32) = bias2 m c := V_main_arg5 m c

end Cert.Ffn.Entry

end
-- ==== Proof.KernelRun.lean ====
/-
  The idealized kernel's run, read: its result array ends at `Cert.Ffn.ffn` of the six argument arrays.

  The region leaves the 32768 × 768 result `regionOut` (the 64 blocks tile it); the one host line after the region
  reshapes it to 8 × 4096 × 768, so entry `(b, s, e)` is row `4096 b + s`, column `e`. There the token rows read the
  token at `(b, s)`, the folded weights read `W1[f,q] · cos θ[q]`, and the hidden unit with the folded weights is the
  hidden unit of the specification (commutativity and associativity of the product).
-/
import proofs.«135122_j65481071395484_1_alg».proof.Proof.KernelBlocks
import proofs.«135122_j65481071395484_1_alg».proof.Proof.KernelEntry

noncomputable section

namespace Cert.Ffn.Kernel

open Idealize.ShloMosaic Idealize.ShloMosaic.TcCoe Idealize.ShloMosaic.ValueIdx Idealize.SL.Sem Idealize.ShloMosaic.StableHlo
open Cert.KernelIdeal Cert.KernelIdeal.Gen Cert.Ffn Cert.Ffn.Entry Cert.Ffn.Blocks

variable (m : (ℓ : Loc nD τ sig) → Buf (Elt Ideal) ℓ) (ρ : Dev nD → PrngReg)

/-- The specification at the argument arrays as launched. -/
abbrev spec (c : Dev nD) : FVec Ideal S8x4096x768 .f32 :=
  ffn (tokens m c) (angles m c) (weights1 m c) (bias1 m c) (weights2 m c) (bias2 m c)

/-- Row `4096 b + s`, column `e` of the region's result is the specification at `(b, s, e)`. -/
theorem regionOut_apply (c : Dev nD) (b : Fin 8) (s : Fin 4096) (e : Fin 768) (r : Fin 32768) (hr : r.val = b.val * 4096 + s.val) :
    regionOut m c (ix2 r e) = spec m c (ix3 b s e) := by
  show rowsOut (rows m c) (folded m c) (V m c main_arg3) (narrowed2 m c) (V m c main_arg5) (ix2 r e) = _
  rw [rowsOut_apply, bias1_kept, bias2_kept]
  show _ = (∑ f : Fin 3072, hidden (tokens m c) (angles m c) (weights1 m c) (bias1 m c) b s f * weights2 m c (ix2 e f)) + bias2 m c (ix1 e)
  refine congrArg (· + bias2 m c (ix1 e)) (Finset.sum_congr rfl fun f _ => ?_)
  rw [narrowed2_apply, ← hiddenFolded_eq]
  refine congrArg (· * weights2 m c (ix2 e f)) ?_
  unfold hiddenFolded
  refine congrArg (fun z => max (z + bias1 m c (ix1 f)) zeroWord) (Finset.sum_congr rfl fun q _ => ?_)
  rw [rows_apply m c b s (col q) r hr, folded_apply]

/-- The line after the region reshapes the region's result. -/
theorem tail_eq (c : Dev nD) :
    (Pipeline.afterTail₀ cfgs (dats m) 0 (V0 m) [hostOps1] c main_v8 : FVec Ideal S8x4096x768 .f32)
      = shapeCast S8x4096x768 ((dats m 0 c).arrAt 5 cfg0.N : FVec Ideal S32768x768 .f32) shapeCasts_S32768x768_S8x4096x768 := by
  unfold Pipeline.afterTail₀
  show StableHlo.after hostOps1 _ (Proc.devRef .tc main_v8) = _
  after_results
  exact congrArg (fun A : FVec Ideal S32768x768 .f32 => shapeCast S8x4096x768 A shapeCasts_S32768x768_S8x4096x768)
    (Pipeline.withArrays_arr spec0 launch0.win.arr_inj c (V0 m c) (fun w => (dats m 0 c).arrAt w (cfgs 0).N) 5)

/-- The kernel's result array after the run is the specification. -/
theorem result_eq (c : Dev nD) :
    (Pipeline.afterTail₀ cfgs (dats m) 0 (V0 m) [hostOps1] c main_v8 : FVec Ideal S8x4096x768 .f32) = spec m c := by
  rw [tail_eq, regionOut_final]
  funext i
  obtain ⟨b, s, e, rfl⟩ : ∃ (b : Fin 8) (s : Fin 4096) (e : Fin 768), i = ix3 b s e := ⟨i 0, i 1, i 2, eq_ix3 i⟩
  have hb := b.isLt
  have hs := s.isLt
  rw [shapeCast_apply (regionOut m c) shapeCasts_S32768x768_S8x4096x768 (ix3 b s e)
    (ix2 (⟨b.val * 4096 + s.val, by omega⟩ : Fin 32768) e) (by
      rw [Shape.rowMajor_val_three, Shape.rowMajor_val_two]
      rfl)]
  exact regionOut_apply m c b s e _ rfl

/-- Every weakly fair execution of the idealized kernel terminates with its result array at the specification of the
    argument arrays, and the argument arrays unchanged. -/
theorem run : θ_run defs (onTc (τ := τ) (main (F := Ideal))) ⟨m, fun _ => 0, ρ⟩ fun r => ∀ c : Dev nD,
      r.2.mem ((c.tc : Thread nD τ).loc main_v8) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c)))⟩)
    (run_main m ρ)

end Cert.Ffn.Kernel

end
-- ==== Proof.RefValue.lean ====
/-
  The reference's result, read one operation at a time, is the function `Cert.Ffn.ffn` of its six arguments.

  Index by index: the final add reads the second product and the broadcast bias `b2[e]`; the second product is the sum
  over the 3072 hidden units of the rectified unit times `W2[e, f]`; the rectified unit is the maximum of the first
  product plus `b1[f]` with the zero word; the first product is the sum over the eight angles of
  `cos x[b,s,q] · cos θ[q]` times `W1[f,q]`; and the slice of the token array reads column `q` of its 768.
-/
import proofs.«135122_j65481071395484_1_alg».proof.Proof.Gen.ReferenceIdeal.Read
import proofs.«135122_j65481071395484_1_alg».proof.Proof.Spec

noncomputable section

namespace Cert.Ffn.Reference

open Idealize.ShloMosaic Idealize.ShloMosaic.ValueIdx Cert.ReferenceIdeal Cert.ReferenceIdeal.Read Cert.Ffn

/-- The slice's index map sends `(b, s, q)` to `(b, s, column q)`. -/
theorem slice_idx (b : Fin 8) (s : Fin 4096) (q : Fin 8) :
    idx_main_v0 (ix3 b s q) = ix3 b s (col q) :=
  funext fun a => Fin.ext (by match a with | ⟨0, _⟩ => rfl | ⟨1, _⟩ => rfl | ⟨2, _⟩ => rfl)

/-- The expectation `cos x · cos θ` at `(b, s, q)`, after the slice, the two cosines and the two broadcasts. -/
theorem expectation_apply (x : FVec Ideal Tok .f32) (θ : FVec Ideal Ang .f32) (b : Fin 8) (s : Fin 4096) (q : Fin 8) :
    val_main_v5 (F := Ideal) x θ (ix3 b s q) = Ideal.cos (x (ix3 b s (col q))) * Ideal.cos (θ (ix1 q)) := by
  rw [val_main_v5_apply, val_main_v1_apply, val_main_v0_apply, val_main_v4_apply, val_main_v3_apply, val_main_v2_apply,
    slice_idx]
  have e : idx_main_v3 (idx_main_v4 (ix3 b s q)) = ix1 q :=
    funext fun a => Fin.ext (by match a with | ⟨0, _⟩ => rfl)
  rw [e]
  rfl

/-- The rectified hidden unit at `(b, s, f)` is `Cert.Ffn.hidden`. -/
theorem hidden_apply (x : FVec Ideal Tok .f32) (θ : FVec Ideal Ang .f32) (W1 : FVec Ideal Wt1 .f32) (b1 : FVec Ideal Bi1 .f32)
    (b : Fin 8) (s : Fin 4096) (f : Fin 3072) :
    val_main_v10 (F := Ideal) x θ W1 b1 (ix3 b s f) = hidden x θ W1 b1 b s f := by
  rw [val_main_v10_apply, val_main_v9_apply, val_main_v6_apply, val_main_v8_apply, val_main_v7_apply,
    val_main_call0_v0_apply, val_main_call0_cst_apply]
  unfold hidden
  have el : ∀ q : Fin 8, lidx_main_v6 (ix3 b s f) q = ix3 b s q := fun q =>
    funext fun a => Fin.ext (by match a with | ⟨0, _⟩ => rfl | ⟨1, _⟩ => rfl | ⟨2, _⟩ => rfl)
  have er : ∀ q : Fin 8, ridx_main_v6 (ix3 b s f) q = ix2 f q := fun q =>
    funext fun a => Fin.ext (by match a with | ⟨0, _⟩ => rfl | ⟨1, _⟩ => rfl)
  have eb : idx_main_v7 (idx_main_v8 (ix3 b s f)) = ix1 f :=
    funext fun a => Fin.ext (by match a with | ⟨0, _⟩ => rfl)
  simp only [el, er, eb, expectation_apply]
  rfl

/-- The reference's result is `ffn` of its arguments. -/
theorem result_eq (x : FVec Ideal Tok .f32) (θ : FVec Ideal Ang .f32) (W1 : FVec Ideal Wt1 .f32) (b1 : FVec Ideal Bi1 .f32)
    (W2 : FVec Ideal Wt2 .f32) (b2 : FVec Ideal Bi2 .f32) :
    val_main_v14 (F := Ideal) x θ W1 b1 W2 b2 = ffn x θ W1 b1 W2 b2 := by
  funext i
  obtain ⟨b, s, e, rfl⟩ : ∃ (b : Fin 8) (s : Fin 4096) (e : Fin 768), i = ix3 b s e := ⟨i 0, i 1, i 2, eq_ix3 i⟩
  rw [val_main_v14_apply, val_main_v11_apply, val_main_v13_apply, val_main_v12_apply]
  unfold ffn
  have el : ∀ f : Fin 3072, lidx_main_v11 (ix3 b s e) f = ix3 b s f := fun f =>
    funext fun a => Fin.ext (by match a with | ⟨0, _⟩ => rfl | ⟨1, _⟩ => rfl | ⟨2, _⟩ => rfl)
  have er : ∀ f : Fin 3072, ridx_main_v11 (ix3 b s e) f = ix2 e f := fun f =>
    funext fun a => Fin.ext (by match a with | ⟨0, _⟩ => rfl | ⟨1, _⟩ => rfl)
  have eb : idx_main_v12 (idx_main_v13 (ix3 b s e)) = ix1 e :=
    funext fun a => Fin.ext (by match a with | ⟨0, _⟩ => rfl)
  simp only [el, er, eb, hidden_apply]
  rfl

end Cert.Ffn.Reference

end
-- ==== Proof.lean ====
/- A two-layer perceptron over eight cosine features, fused into one kernel, against its plain jnp reference,
   compared over the extended reals.

   The reference takes the first eight columns of each token, forms `cos x[b,s,q] · cos θ[q]`, multiplies by the first
   weights, adds the first bias, rectifies, multiplies by the second weights and adds the second bias. The kernel
   multiplies the first weights by `cos θ` on the host beforehand, reshapes the tokens to 32768 rows, computes 512 rows per
   grid point, and reshapes the result back. Over the extended reals every change of float format is the identity, both
   cosines are one function, and a matrix product into a zero accumulator is the plain sum, so the two results differ
   only in where `cos θ[q]` sits in each product: `(a · t) · w = a · (w · t)`, by commutativity and associativity alone;
   no input needs to be finite for it.

   The frames of the two kernel programs are the generated ones; the reference's frame is its generated run with the
   result dropped; the idealization rewrote no operation, so `preserves` is trivial; `algebraic` pairs the kernel's run
   (`Cert.Ffn.Kernel.run`) with the reference's run read as the same function (`Cert.Ffn.Reference.result_eq`). -/
import proofs.«135122_j65481071395484_1_alg».proof.Defs
import proofs.«135122_j65481071395484_1_alg».proof.Proof.Gen.Kernel
import proofs.«135122_j65481071395484_1_alg».proof.Proof.Gen.Kernel.Skeleton
import proofs.«135122_j65481071395484_1_alg».proof.Proof.Gen.Kernel.Launch
import proofs.«135122_j65481071395484_1_alg».proof.Proof.Gen.Kernel.Points
import proofs.«135122_j65481071395484_1_alg».proof.Proof.Gen.Kernel.Frame
import proofs.«135122_j65481071395484_1_alg».proof.Proof.Gen.KernelIdeal
import proofs.«135122_j65481071395484_1_alg».proof.Proof.Gen.KernelIdeal.Skeleton
import proofs.«135122_j65481071395484_1_alg».proof.Proof.Gen.KernelIdeal.Launch
import proofs.«135122_j65481071395484_1_alg».proof.Proof.Gen.KernelIdeal.Points
import proofs.«135122_j65481071395484_1_alg».proof.Proof.Gen.KernelIdeal.Frame
import proofs.«135122_j65481071395484_1_alg».proof.Proof.Gen.ReferenceIdeal
import proofs.«135122_j65481071395484_1_alg».proof.Proof.Gen.Pre_finite_inputs
import proofs.«135122_j65481071395484_1_alg».proof.Proof.Gen.ReferenceIdeal.Run
import proofs.«135122_j65481071395484_1_alg».proof.Proof.Gen.ReferenceIdeal.Read
import proofs.«135122_j65481071395484_1_alg».proof.Proof.KernelRun
import proofs.«135122_j65481071395484_1_alg».proof.Proof.RefValue
import Idealize.ShloMosaic.Adequacy
import Idealize.ShloMosaic.Init

noncomputable section

namespace Cert.Proof

open Idealize.ShloMosaic Idealize.SL.Sem Cert.Kernel

/-- Both idealized programs end with the result array at `Cert.Ffn.ffn` of arguments that agree. -/
theorem algebraic : Cert.algebraic_KernelIdeal_ReferenceIdeal := by
  intro m ρ m' ρ' _ hagree
  refine ⟨fun c => Cert.Ffn.Kernel.spec m c, Cert.Ffn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Ffn.Reference.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
